-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S12288x4096 : Shape := ⟨2, ![12288, 4096]⟩
abbrev S4096x12288 : Shape := ⟨2, ![4096, 12288]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S4096x12288 : S_.BroadcastsInDim S4096x12288 (![] : Fin 0 → Fin S4096x12288.rank)
  reducesTo_S4096x12288_S_d0_1 : S4096x12288.ReducesTo [0, 1] S_

variable [Facts]

def fn_part1 {F : FTy → Type} [FloatOps F] (main_v13 : IVec S_ 1) (main_v16 : IVec S4096x12288 1) : IVec S_ 1 :=
  let main_c_5 : IVec S_ 1 := constantI S_ 1 1#1
  let main_v17 : IVec S_ 1 := (fun x v => Host.reduce IntOp.andi x v reducesTo_S4096x12288_S_d0_1 h_S_) main_v16 main_c_5
  let main_v18 : IVec S_ 1 := andi main_v13 main_v17
  main_v18

def fn {F : FTy → Type} [FloatOps F] (main_arg0 : FVec F S8192x4096 .f32) (main_arg1 : FVec F S12288x4096 .f32) (main_arg2 : FVec F S12288x4096 .f32) (main_arg3 : FVec F S4096x12288 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288x4096 .f32 := Host.absf main_arg2
  let main_cst_2 : FVec F S_ .f32 := constant S_ .f32 0x7F800000#32
  let main_v10 : FVec F S12288x4096 .f32 := broadcastInDim S12288x4096 ![] bcast_S_S12288x4096 main_cst_2
  let main_v11 : IVec S12288x4096 1 := cmpf .olt main_v9 main_v10
  let main_c_3 : IVec S_ 1 := constantI S_ 1 1#1
  let main_v12 : IVec S_ 1 := (fun x v => Host.reduce IntOp.andi x v reducesTo_S12288x4096_S_d0_1 h_S_) main_v11 main_c_3
  let main_v13 : IVec S_ 1 := andi main_v8 main_v12
  let main_v14 : FVec F S4096x12288 .f32 := Host.absf main_arg3
  let main_cst_4 : FVec F S_ .f32 := constant S_ .f32 0x7F800000#32
  let main_v15 : FVec F S4096x12288 .f32 := broadcastInDim S4096x12288 ![] bcast_S_S4096x12288 main_cst_4
  let main_v16 : IVec S4096x12288 1 := cmpf .olt main_v14 main_v15
  fn_part1 (F := F) main_v13 main_v16
-- ==== Kernel.lean ====
abbrev S8192x4096 : Shape := ⟨2, ![8192, 4096]⟩
abbrev S12288x4096 : Shape := ⟨2, ![12288, 4096]⟩
abbrev S4096x12288 : Shape := ⟨2, ![4096, 12288]⟩
abbrev S256x4096 : Shape := ⟨2, ![256, 4096]⟩
abbrev S384x4096 : Shape := ⟨2, ![384, 4096]⟩
abbrev S4096x384 : Shape := ⟨2, ![4096, 384]⟩
abbrev S256x384 : Shape := ⟨2, ![256, 384]⟩

abbrev nBuf : Space → Nat
  | .hbm => 9
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S12288x4096, .f32⟩
  | .hbm, ⟨3, _⟩ => ⟨S4096x12288, .f32⟩
  | .hbm, ⟨4, _⟩ => ⟨S8192x4096, .bf16⟩
  | .hbm, ⟨5, _⟩ => ⟨S12288x4096, .bf16⟩
  | .hbm, ⟨6, _⟩ => ⟨S12288x4096, .bf16⟩
  | .hbm, ⟨7, _⟩ => ⟨S4096x12288, .bf16⟩
  | .hbm, ⟨8, _⟩ => ⟨S8192x4096, .f32⟩
  | .local _ .vmem, ⟨0, _⟩ => ⟨S256x4096, .bf16⟩
  | .local _ .vmem, ⟨1, _⟩ => ⟨S256x4096, .bf16⟩
  | .local _ .vmem, ⟨2, _⟩ => ⟨S384x4096, .bf16⟩
  | .local _ .vmem, ⟨3, _⟩ => ⟨S384x4096, .bf16⟩
  | .local _ .vmem, ⟨4, _⟩ => ⟨S384x4096, .bf16⟩
  | .local _ .vmem, ⟨5, _⟩ => ⟨S384x4096, .bf16⟩
  | .local _ .vmem, ⟨6, _⟩ => ⟨S4096x384, .bf16⟩
  | .local _ .vmem, ⟨7, _⟩ => ⟨S4096x384, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S384x4096_S384x4096_0_0 : ∀ a, (![0, 0] : Fin 2 → Nat) a + S384x4096.size a ≤ S384x4096.size a
  h_S384x4096 : 0 < S384x4096.numel
  shapeCasts_S384x4096_S384x4096 : S384x4096.ShapeCasts S384x4096
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  dot_S256x4096_S384x4096_S256x384_1_1_0_0_n_n_wf : DotDims.WF S256x4096 S384x4096 S256x384 [1] [1] [0] [0] [] []
  dot_S256x384_S4096x384_S256x4096_1_1_0_0_n_n_wf : DotDims.WF S256x384 S4096x384 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x4096.size a ≤ S12288x4096.size a
  hwx0_1 : ∀ i : grid0.Coords, EltTy.bits .bf16 = 32 ∨ (Rect.block (s := S12288x4096) S384x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S384x4096.size a ≤ S12288x4096.size a
  hwx0_2 : ∀ i : grid0.Coords, EltTy.bits .bf16 = 32 ∨ (Rect.block (s := S12288x4096) S384x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x384.size a ≤ S4096x12288.size a
  hwx0_3 : ∀ i : grid0.Coords, EltTy.bits .bf16 = 32 ∨ (Rect.block (s := S4096x12288) S4096x384.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S384x4096_S256x384_1_1_0_0_n_n : DotDims S256x4096 S384x4096 S256x384 where
  lhsContracting := [1]
  rhsContracting := [1]
  lhsNonContracting := [0]
  rhsNonContracting := [0]
  lhsBatch := []
  rhsBatch := []
  wf := dot_S256x4096_S384x4096_S256x384_1_1_0_0_n_n_wf
def dot_S256x384_S4096x384_S256x4096_1_1_0_0_n_n : DotDims S256x384 S4096x384 S256x4096 where
  lhsContracting := [1]
  rhsContracting := [1]
  lhsNonContracting := [0]
  rhsNonContracting := [0]
  lhsBatch := []
  rhsBatch := []
  wf := dot_S256x384_S4096x384_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S384x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S384x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S12288x4096 : Shape := ⟨2, ![12288, 4096]⟩
abbrev S4096x12288 : Shape := ⟨2, ![4096, 12288]⟩
abbrev S8192x12288 : Shape := ⟨2, ![8192, 12288]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S12288x4096, .f32⟩
  | .hbm, ⟨3, _⟩ => ⟨S4096x12288, .f32⟩
  | .hbm, ⟨4, _⟩ => ⟨S8192x12288, .f32⟩
  | .hbm, ⟨5, _⟩ => ⟨S8192x12288, .f32⟩
  | .hbm, ⟨6, _⟩ => ⟨S8192x12288, .f32⟩
  | .hbm, ⟨7, _⟩ => ⟨S8192x12288, .f32⟩
  | .hbm, ⟨8, _⟩ => ⟨S_, .f32⟩
  | .hbm, ⟨9, _⟩ => ⟨S8192x12288, .f32⟩
  | .hbm, ⟨10, _⟩ => ⟨S8192x12288, .f32⟩
  | .hbm, ⟨11, _⟩ => ⟨S_, .f32⟩
  | .hbm, ⟨12, _⟩ => ⟨S8192x12288, .f32⟩
  | .hbm, ⟨13, _⟩ => ⟨S8192x12288, .f32⟩
  | .hbm, ⟨14, _⟩ => ⟨S8192x12288, .f32⟩
  | .hbm, ⟨15, _⟩ => ⟨S8192x12288, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8192x12288 : S_.BroadcastsInDim S8192x12288 (![] : Fin 0 → Fin S8192x12288.rank)
  dot_S8192x4096_S12288x4096_S8192x12288_1_1_0_0_n_n_wf : DotDims.WF S8192x4096 S12288x4096 S8192x12288 [1] [1] [0] [0] [] []
  dot_S8192x12288_S4096x12288_S8192x4096_1_1_0_0_n_n_wf : DotDims.WF S8192x12288 S4096x12288 S8192x4096 [1] [1] [0] [0] [] []

variable [Facts₀]

def dot_S8192x4096_S12288x4096_S8192x12288_1_1_0_0_n_n : DotDims S8192x4096 S12288x4096 S8192x12288 where
  lhsContracting := [1]
  rhsContracting := [1]
  lhsNonContracting := [0]
  rhsNonContracting := [0]
  lhsBatch := []
  rhsBatch := []
  wf := dot_S8192x4096_S12288x4096_S8192x12288_1_1_0_0_n_n_wf
def dot_S8192x12288_S4096x12288_S8192x4096_1_1_0_0_n_n : DotDims S8192x12288 S4096x12288 S8192x4096 where
  lhsContracting := [1]
  rhsContracting := [1]
  lhsNonContracting := [0]
  rhsNonContracting := [0]
  lhsBatch := []
  rhsBatch := []
  wf := dot_S8192x12288_S4096x12288_S8192x4096_1_1_0_0_n_n_wf

class Facts : Prop extends Facts₀ where

variable [Facts]
-- ==== Proof.BlockSum.lean ====
/-
  Regrouping a long sum into consecutive blocks.

  The down-projection contracts over all 12288 hidden units at once; a tiled computation visits them in 32
  consecutive blocks of 384 and adds the blocks' partial sums one after the other. In a commutative additive monoid the
  two are the same number: the index set `Fin (B * W)` is the product `Fin B × Fin W` (block, offset in the block),
  index `W * s + j` being offset `j` of block `s`, and a sum over a product is the iterated sum. No subtraction,
  cancellation or distributivity is used, so nothing here asks the summands to be finite.
-/
import Idealize.ShloMosaic.Lib.ValueIdx
import Mathlib.Algebra.BigOperators.Fin

namespace BlockSum

/-- A sum over `Fin N`, `N = B * W`, is the sum over the `B` blocks of the sum over each block's `W` entries, when
    `col s j` names entry `j` of block `s`, i.e. index `W * s + j`. -/
theorem sum_eq_sum_blocks {M : Type*} [AddCommMonoid M] {B W N : ℕ} (hN : B * W = N) (T : Fin N → M)
    (col : Fin B → Fin W → Fin N) (hcol : ∀ s j, (col s j).val = W * s.val + j.val) :
    ∑ i : Fin N, T i = ∑ s : Fin B, ∑ j : Fin W, T (col s j) := by
  subst hN
  rw [← Equiv.sum_comp finProdFinEquiv T, Fintype.sum_prod_type]
  refine Finset.sum_congr rfl fun s _ => Finset.sum_congr rfl fun j _ => congrArg T (Fin.ext ?_)
  rw [hcol, finProdFinEquiv_apply_val, Nat.add_comm]

/-- The same with the blocks counted by a natural number below `B`, as a running accumulation counts them: the
    outer sum over `Finset.range B` of a summand that is given on every natural (its values from `B` on are not used). -/
theorem sum_eq_sum_range_blocks {M : Type*} [AddCommMonoid M] {B W N : ℕ} (hN : B * W = N) (T : Fin N → M)
    (col : Fin B → Fin W → Fin N) (hcol : ∀ s j, (col s j).val = W * s.val + j.val)
    (P : ℕ → M) (hP : ∀ s : Fin B, P s.val = ∑ j : Fin W, T (col s j)) :
    ∑ i : Fin N, T i = ∑ s ∈ Finset.range B, P s := by
  rw [sum_eq_sum_blocks hN T col hcol, ← Fin.sum_univ_eq_sum_range]
  exact Finset.sum_congr rfl fun s _ => (hP s).symm

end BlockSum
-- ==== Proof.Spec.lean ====
/-
  The gated feed-forward layer as one function of its four argument arrays, and the same number block by block.

  For tokens `x` (8192 × 4096), gate and up weights (12288 × 4096 each) and down weights (4096 × 12288):
    proj x w t i   = Σ_k x[t,k] · w[i,k]                                  (a row of x against a row of w)
    hidden t i     = (g · σ(g)) · u,  g = proj x gate t i, u = proj x up t i,  σ(g) = 1 / (1 + e^(-g))
    out[t,h]       = Σ_i hidden t i · down[h,i]                           (i over all 12288 hidden units)
  all on the extended reals. A tiled evaluation takes 256 tokens and 384 hidden units at a time: from a 256-row block of
  `x`, 384-row blocks of the gate and up weights and the matching 384-column block of the down weights it forms
    tileAt r h     = Σ_{j<384} hiddenB r j · downB[h,j]
  and adds the 32 partial results of a token block one after the other. `outAt_eq_sum_blocks` says that this is `out`:
  hidden unit `384·s + j` is unit `j` of block `s`, and a sum over 12288 = 32 · 384 indices is the sum of its 32 block sums.
  Only commutativity and associativity of addition are used, so no summand needs to be finite.
-/
import Idealize.ShloMosaic.Lib.ValueIdx
import Idealize.ShloMosaic.PureOps.Ideal
import proofs.«137303_j20383914787225_1_alg».proof.Proof.BlockSum

noncomputable section

namespace SwiGLU

open Idealize.ShloMosaic Idealize.ShloMosaic.ValueIdx

/-- Tokens × model width. -/
abbrev TokArr := (⟨2, ![8192, 4096]⟩ : Shape).Idx → EReal
/-- Hidden units × model width (the gate and the up projection's weights). -/
abbrev UpArr := (⟨2, ![12288, 4096]⟩ : Shape).Idx → EReal
/-- Model width × hidden units (the down projection's weights). -/
abbrev DownArr := (⟨2, ![4096, 12288]⟩ : Shape).Idx → EReal
/-- A block of 256 tokens. -/
abbrev TokBlk := (⟨2, ![256, 4096]⟩ : Shape).Idx → EReal
/-- A block of 384 hidden units' rows. -/
abbrev UpBlk := (⟨2, ![384, 4096]⟩ : Shape).Idx → EReal
/-- The matching block of 384 columns of the down weights. -/
abbrev DownBlk := (⟨2, ![4096, 384]⟩ : Shape).Idx → EReal

/-! ## The whole arrays -/

/-- Token `t` against hidden unit `i`'s weight row. -/
def proj (x : TokArr) (w : UpArr) (t : Fin 8192) (i : Fin 12288) : EReal :=
  ∑ k : Fin 4096, x (ix2 t k) * w (ix2 i k)

/-- The gated hidden activation: `silu` of the gate projection times the up projection. -/
def hidden (x : TokArr) (gw uw : UpArr) (t : Fin 8192) (i : Fin 12288) : EReal :=
  proj x gw t i * Ideal.logistic (proj x gw t i) * proj x uw t i

/-- The layer's result at token `t`, output column `h`. -/
def outAt (x : TokArr) (gw uw : UpArr) (dw : DownArr) (t : Fin 8192) (h : Fin 4096) : EReal :=
  ∑ i : Fin 12288, hidden x gw uw t i * dw (ix2 h i)

/-- The layer's result, as an array. -/
def out (x : TokArr) (gw uw : UpArr) (dw : DownArr) : TokArr :=
  fun p => outAt x gw uw dw ⟨(p 0).val, (p 0).isLt⟩ ⟨(p 1).val, (p 1).isLt⟩

theorem out_ix2 (x : TokArr) (gw uw : UpArr) (dw : DownArr) (t : Fin 8192) (h : Fin 4096) :
    out x gw uw dw (ix2 t h) = outAt x gw uw dw t h := rfl

/-! ## One tile -/

def projB (xb : TokBlk) (wb : UpBlk) (r : Fin 256) (j : Fin 384) : EReal :=
  ∑ k : Fin 4096, xb (ix2 r k) * wb (ix2 j k)

def hiddenB (xb : TokBlk) (gb ub : UpBlk) (r : Fin 256) (j : Fin 384) : EReal :=
  projB xb gb r j * Ideal.logistic (projB xb gb r j) * projB xb ub r j

/-- What one tile contributes to entry (r, h) of its token block's result. -/
def tileAt (xb : TokBlk) (gb ub : UpBlk) (db : DownBlk) (r : Fin 256) (h : Fin 4096) : EReal :=
  ∑ j : Fin 384, hiddenB xb gb ub r j * db (ix2 h j)

/-! ## Tiles as parts of the arrays -/

/-- Row `r` of token block `q` (blocks counted modulo 32, so that every natural names one). -/
def rowIx (q : ℕ) (r : Fin 256) : Fin 8192 :=
  ⟨256 * (q % 32) + r.val, by have := r.isLt; have := Nat.mod_lt q (show 0 < 32 by norm_num); omega⟩

/-- Hidden unit `j` of hidden block `s` (counted modulo 32 likewise). -/
def colIx (s : ℕ) (j : Fin 384) : Fin 12288 :=
  ⟨384 * (s % 32) + j.val, by have := j.isLt; have := Nat.mod_lt s (show 0 < 32 by norm_num); omega⟩

theorem rowIx_val (q : ℕ) (r : Fin 256) : (rowIx q r).val = 256 * (q % 32) + r.val := rfl
theorem colIx_val (s : ℕ) (j : Fin 384) : (colIx s j).val = 384 * (s % 32) + j.val := rfl

/-- The `n`-th tile in row-major order over (token block, hidden block) belongs to token block `n / 32` and hidden
    block `n % 32`; this is what it adds at entry (r, h) of its token block. -/
def blockTerm (x : TokArr) (gw uw : UpArr) (dw : DownArr) (n : ℕ) (r : Fin 256) (h : Fin 4096) : EReal :=
  ∑ j : Fin 384, hidden x gw uw (rowIx (n / 32) r) (colIx n j) * dw (ix2 h (colIx n j))

/-- A tile cut out of the arrays contributes that term. -/
theorem tileAt_eq_blockTerm (x : TokArr) (gw uw : UpArr) (dw : DownArr) (n : ℕ)
    (xb : TokBlk) (gb ub : UpBlk) (db : DownBlk)
    (hx : ∀ (r : Fin 256) (k : Fin 4096), xb (ix2 r k) = x (ix2 (rowIx (n / 32) r) k))
    (hg : ∀ (j : Fin 384) (k : Fin 4096), gb (ix2 j k) = gw (ix2 (colIx n j) k))
    (hu : ∀ (j : Fin 384) (k : Fin 4096), ub (ix2 j k) = uw (ix2 (colIx n j) k))
    (hd : ∀ (h : Fin 4096) (j : Fin 384), db (ix2 h j) = dw (ix2 h (colIx n j))) (r : Fin 256) (h : Fin 4096) :
    tileAt xb gb ub db r h = blockTerm x gw uw dw n r h := by
  unfold tileAt blockTerm hiddenB hidden projB proj
  simp only [hx, hg, hu, hd]

theorem rowIx_block (q s : ℕ) (hs : s < 32) (r : Fin 256) : rowIx ((32 * q + s) / 32) r = rowIx q r :=
  Fin.ext (by rw [rowIx_val, rowIx_val]; omega)

theorem colIx_block (q s : ℕ) (hs : s < 32) (j : Fin 384) : colIx (32 * q + s) j = colIx s j :=
  Fin.ext (by rw [colIx_val, colIx_val]; omega)

/-- THE LAW: entry (r, h) of token block `q` of the result is the sum of the 32 tiles' contributions. -/
theorem outAt_eq_sum_blocks (x : TokArr) (gw uw : UpArr) (dw : DownArr) (q : ℕ) (r : Fin 256) (h : Fin 4096) :
    outAt x gw uw dw (rowIx q r) h = ∑ s ∈ Finset.range 32, blockTerm x gw uw dw (32 * q + s) r h := by
  unfold outAt
  refine BlockSum.sum_eq_sum_range_blocks (B := 32) (W := 384) (by norm_num)
    (fun i => hidden x gw uw (rowIx q r) i * dw (ix2 h i)) (fun s j => colIx s.val j)
    (fun s j => by rw [colIx_val, Nat.mod_eq_of_lt s.isLt]) (fun s => blockTerm x gw uw dw (32 * q + s) r h) (fun s => ?_)
  unfold blockTerm
  refine Finset.sum_congr rfl fun j _ => ?_
  rw [rowIx_block q s.val s.isLt, colIx_block q s.val s.isLt]

end SwiGLU
-- ==== Proof.Payload.lean ====
/-
  One tile's arithmetic, at the ideal values.

  The body's accumulating store writes `acc + (silu(x·gᵀ) * (x·uᵀ)) · dᵀ` for a 256-row block `x` of tokens, 384-row
  blocks `g`, `u` of the gate and up weights and the 4096 × 384 block `d` of the down weights. At the ideal values a
  matrix product into a zero accumulator is, entry by entry, the plain sum of products over the contracted axis, a
  change of float format is the identity, and the sigmoid is `1 / (1 + e^(-z))`; so entry (r, h) of what the store
  writes is `acc[r,h] + Σ_{j<384} hiddenB r j · d[h,j]`: the accumulator plus the tile's contribution as the
  specification names it. The zeroing store writes the constant 0.
-/
import proofs.«137303_j20383914787225_1_alg».proof.Proof.Spec
import proofs.«137303_j20383914787225_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## A token block against a weight block: contraction along the model width -/

theorem proj_lhs_0 (i : S256x384.Idx) (q : dot_S256x4096_S384x4096_S256x384_1_1_0_0_n_n.contr.Idx) :
    (dot_S256x4096_S384x4096_S256x384_1_1_0_0_n_n.lhsIdx i q 0).val = (i 0).val := by
  unfold DotDims.lhsIdx
  rw [dif_neg (show ¬(0 : Fin S256x4096.rank) ∈ dot_S256x4096_S384x4096_S256x384_1_1_0_0_n_n.lhsBatch by decide), dif_pos (show (0 : Fin S256x4096.rank) ∈ dot_S256x4096_S384x4096_S256x384_1_1_0_0_n_n.lhsNonContracting by decide)]
  rfl
theorem proj_lhs_1 (i : S256x384.Idx) (q : dot_S256x4096_S384x4096_S256x384_1_1_0_0_n_n.contr.Idx) :
    (dot_S256x4096_S384x4096_S256x384_1_1_0_0_n_n.lhsIdx i q 1).val = (q ⟨0, by decide⟩).val :=
  dot_S256x4096_S384x4096_S256x384_1_1_0_0_n_n.lhsIdx_val_of_single rfl i q
theorem proj_rhs_0 (i : S256x384.Idx) (q : dot_S256x4096_S384x4096_S256x384_1_1_0_0_n_n.contr.Idx) :
    (dot_S256x4096_S384x4096_S256x384_1_1_0_0_n_n.rhsIdx i q 0).val = (i 1).val := by
  unfold DotDims.rhsIdx
  rw [dif_neg (show ¬(0 : Fin S384x4096.rank) ∈ dot_S256x4096_S384x4096_S256x384_1_1_0_0_n_n.rhsBatch by decide), dif_pos (show (0 : Fin S384x4096.rank) ∈ dot_S256x4096_S384x4096_S256x384_1_1_0_0_n_n.rhsNonContracting by decide)]
  rfl
theorem proj_rhs_1 (i : S256x384.Idx) (q : dot_S256x4096_S384x4096_S256x384_1_1_0_0_n_n.contr.Idx) :
    (dot_S256x4096_S384x4096_S256x384_1_1_0_0_n_n.rhsIdx i q 1).val = (q ⟨0, by decide⟩).val :=
  dot_S256x4096_S384x4096_S256x384_1_1_0_0_n_n.rhsIdx_val_of_single rfl i q

/-- Entry (r, j) of a token block times a transposed weight block: row `r` against row `j`, along the 4096 columns. -/
theorem matmul_proj_apply (xb : FVec Ideal S256x4096 .bf16) (wb : FVec Ideal S384x4096 .bf16) (r : Fin 256) (j : Fin 384) :
    matmul dot_S256x4096_S384x4096_S256x384_1_1_0_0_n_n none xb wb (constant S256x384 .f32 0x00000000#32) (ix2 r j)
      = ∑ k : Fin 4096, xb (ix2 r k) * wb (ix2 j k) := by
  simp only [matmul]
  rw [Ideal.matmul_constant_zero_apply, ← Equiv.sum_comp (ValueIdx.contrEquiv1 dot_S256x4096_S384x4096_S256x384_1_1_0_0_n_n 4096 rfl rfl).symm]
  refine Finset.sum_congr rfl fun k _ => ?_
  have hk := ValueIdx.contrEquiv1_symm_val dot_S256x4096_S384x4096_S256x384_1_1_0_0_n_n 4096 rfl rfl k
  have el : dot_S256x4096_S384x4096_S256x384_1_1_0_0_n_n.lhsIdx (ix2 r j) ((ValueIdx.contrEquiv1 dot_S256x4096_S384x4096_S256x384_1_1_0_0_n_n 4096 rfl rfl).symm k) = ix2 r k := funext fun a => Fin.ext (by
    match a with
    | ⟨0, _⟩ => exact proj_lhs_0 _ _
    | ⟨1, _⟩ => exact (proj_lhs_1 _ _).trans hk)
  have er : dot_S256x4096_S384x4096_S256x384_1_1_0_0_n_n.rhsIdx (ix2 r j) ((ValueIdx.contrEquiv1 dot_S256x4096_S384x4096_S256x384_1_1_0_0_n_n 4096 rfl rfl).symm k) = ix2 j k := funext fun a => Fin.ext (by
    match a with
    | ⟨0, _⟩ => exact proj_rhs_0 _ _
    | ⟨1, _⟩ => exact (proj_rhs_1 _ _).trans hk)
  rw [el, er]

/-! ## The hidden block against the down block: contraction along the 384 hidden units -/

theorem down_lhs_0 (i : S256x4096.Idx) (q : dot_S256x384_S4096x384_S256x4096_1_1_0_0_n_n.contr.Idx) :
    (dot_S256x384_S4096x384_S256x4096_1_1_0_0_n_n.lhsIdx i q 0).val = (i 0).val := by
  unfold DotDims.lhsIdx
  rw [dif_neg (show ¬(0 : Fin S256x384.rank) ∈ dot_S256x384_S4096x384_S256x4096_1_1_0_0_n_n.lhsBatch by decide), dif_pos (show (0 : Fin S256x384.rank) ∈ dot_S256x384_S4096x384_S256x4096_1_1_0_0_n_n.lhsNonContracting by decide)]
  rfl
theorem down_lhs_1 (i : S256x4096.Idx) (q : dot_S256x384_S4096x384_S256x4096_1_1_0_0_n_n.contr.Idx) :
    (dot_S256x384_S4096x384_S256x4096_1_1_0_0_n_n.lhsIdx i q 1).val = (q ⟨0, by decide⟩).val :=
  dot_S256x384_S4096x384_S256x4096_1_1_0_0_n_n.lhsIdx_val_of_single rfl i q
theorem down_rhs_0 (i : S256x4096.Idx) (q : dot_S256x384_S4096x384_S256x4096_1_1_0_0_n_n.contr.Idx) :
    (dot_S256x384_S4096x384_S256x4096_1_1_0_0_n_n.rhsIdx i q 0).val = (i 1).val := by
  unfold DotDims.rhsIdx
  rw [dif_neg (show ¬(0 : Fin S4096x384.rank) ∈ dot_S256x384_S4096x384_S256x4096_1_1_0_0_n_n.rhsBatch by decide), dif_pos (show (0 : Fin S4096x384.rank) ∈ dot_S256x384_S4096x384_S256x4096_1_1_0_0_n_n.rhsNonContracting by decide)]
  rfl
theorem down_rhs_1 (i : S256x4096.Idx) (q : dot_S256x384_S4096x384_S256x4096_1_1_0_0_n_n.contr.Idx) :
    (dot_S256x384_S4096x384_S256x4096_1_1_0_0_n_n.rhsIdx i q 1).val = (q ⟨0, by decide⟩).val :=
  dot_S256x384_S4096x384_S256x4096_1_1_0_0_n_n.rhsIdx_val_of_single rfl i q

/-- Entry (r, h) of a hidden block times the transposed down block: row `r` against row `h`, along the 384 columns. -/
theorem matmul_down_apply (hb : FVec Ideal S256x384 .bf16) (db : FVec Ideal S4096x384 .bf16) (r : Fin 256) (h : Fin 4096) :
    matmul dot_S256x384_S4096x384_S256x4096_1_1_0_0_n_n none hb db (constant S256x4096 .f32 0x00000000#32) (ix2 r h)
      = ∑ j : Fin 384, hb (ix2 r j) * db (ix2 h j) := by
  simp only [matmul]
  rw [Ideal.matmul_constant_zero_apply, ← Equiv.sum_comp (ValueIdx.contrEquiv1 dot_S256x384_S4096x384_S256x4096_1_1_0_0_n_n 384 rfl rfl).symm]
  refine Finset.sum_congr rfl fun k _ => ?_
  have hk := ValueIdx.contrEquiv1_symm_val dot_S256x384_S4096x384_S256x4096_1_1_0_0_n_n 384 rfl rfl k
  have el : dot_S256x384_S4096x384_S256x4096_1_1_0_0_n_n.lhsIdx (ix2 r h) ((ValueIdx.contrEquiv1 dot_S256x384_S4096x384_S256x4096_1_1_0_0_n_n 384 rfl rfl).symm k) = ix2 r k := funext fun a => Fin.ext (by
    match a with
    | ⟨0, _⟩ => exact down_lhs_0 _ _
    | ⟨1, _⟩ => exact (down_lhs_1 _ _).trans hk)
  have er : dot_S256x384_S4096x384_S256x4096_1_1_0_0_n_n.rhsIdx (ix2 r h) ((ValueIdx.contrEquiv1 dot_S256x384_S4096x384_S256x4096_1_1_0_0_n_n 384 rfl rfl).symm k) = ix2 h k := funext fun a => Fin.ext (by
    match a with
    | ⟨0, _⟩ => exact down_rhs_0 _ _
    | ⟨1, _⟩ => exact (down_rhs_1 _ _).trans hk)
  rw [el, er]

/-! ## The two payloads -/

/-- The zeroing store writes 0 everywhere. -/
theorem zero_apply (y : S256x4096.Idx) : k0_pay1 (F := Ideal) y = 0 := by
  unfold k0_pay1
  simp only [shapeCast_self]
  show Ideal.ofBits .f32 0x00000000#32 = 0
  exact Ideal.ofBits_zero_f32

/-- The gated hidden block the body forms, entry (r, j). -/
theorem hidden_apply (xb : FVec Ideal S256x4096 .bf16) (gb ub : FVec Ideal S384x4096 .bf16) (r : Fin 256) (j : Fin 384) :
    (truncf .bf16 (mulf (mulf (matmul dot_S256x4096_S384x4096_S256x384_1_1_0_0_n_n none xb gb (constant S256x384 .f32 0x00000000#32))
        (logistic (matmul dot_S256x4096_S384x4096_S256x384_1_1_0_0_n_n none xb gb (constant S256x384 .f32 0x00000000#32))))
        (matmul dot_S256x4096_S384x4096_S256x384_1_1_0_0_n_n none xb ub (constant S256x384 .f32 0x00000000#32))) bitsLt_bf16_f32 : FVec Ideal S256x384 .bf16) (ix2 r j)
      = SwiGLU.hiddenB xb gb ub r j := by
  show matmul dot_S256x4096_S384x4096_S256x384_1_1_0_0_n_n none xb gb (constant S256x384 .f32 0x00000000#32) (ix2 r j)
      * Ideal.logistic (matmul dot_S256x4096_S384x4096_S256x384_1_1_0_0_n_n none xb gb (constant S256x384 .f32 0x00000000#32) (ix2 r j))
      * matmul dot_S256x4096_S384x4096_S256x384_1_1_0_0_n_n none xb ub (constant S256x384 .f32 0x00000000#32) (ix2 r j) = _
  rw [matmul_proj_apply, matmul_proj_apply]
  rfl

/-- The accumulating store writes, at entry (r, h), the accumulator there plus the tile's contribution. -/
theorem acc_apply (xb : Vec Ideal S256x4096 .bf16) (gb ub : Vec Ideal S384x4096 .bf16) (db : Vec Ideal S4096x384 .bf16)
    (acc : Vec Ideal S256x4096 .f32) (r : Fin 256) (h : Fin 4096) :
    k0_pay2 (F := Ideal) xb gb xb ub db acc (ix2 r h) = acc (ix2 r h) + SwiGLU.tileAt xb gb ub db r h := by
  unfold k0_pay2
  simp only [shapeCast_self]
  refine congrArg (acc (ix2 r h) + ·) ?_
  refine (matmul_down_apply _ _ r h).trans ?_
  refine Finset.sum_congr rfl fun j _ => ?_
  exact congrArg (· * db (ix2 h j)) (hidden_apply xb gb ub r j)

end Cert.KernelIdeal.Tile
-- ==== Proof.Cases.lean ====
/-
  What each control case of the body leaves behind, as values.

  The body has three cases over the inner grid coordinate. At its first value the scratch is zeroed, read back, and
  the tile's contribution added: the scratch ends at `pay2 … 0`. At the middle values the scratch is read, the
  contribution added and the sum stored: it ends at `pay2 … acc` over what it held. At the last value the same
  happens and the scratch is then copied to the output block, so both end at `pay2 … acc`. Each is the body's one
  covering store read back, its loads being reads of whole buffers.
-/
import proofs.«137303_j20383914787225_1_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The first case: the scratch is zeroed, read back, and ends at the accumulating store's payload over the zero block. -/
theorem scratch_A (c : Dev nD) (i : grid0.Coords) (arg2 : Memref sig .tc .vmem S256x4096 .bf16) (harg2 : arg2.IsWhole) (arg3 : Memref sig .tc .vmem S384x4096 .bf16) (harg3 : arg3.IsWhole) (arg4 : Memref sig .tc .vmem S384x4096 .bf16) (harg4 : arg4.IsWhole) (arg5 : Memref sig .tc .vmem S4096x384 .bf16) (harg5 : arg5.IsWhole) (arg6 : Memref sig .tc .vmem S256x4096 .f32) (harg6 : arg6.IsWhole) (arg7 : Memref sig .tc .vmem S256x4096 .f32) (harg7 : arg7.IsWhole) (hc0 : cond0_0 i) (hc1 : ¬cond0_1 i)
    (x0 : Vec F S256x4096 .bf16) (x1 : Vec F S384x4096 .bf16) (x2 : Vec F S384x4096 .bf16) (x3 : Vec F S4096x384 .bf16) :
    sout0_A_0 c i arg2 harg2 arg3 harg3 arg4 harg4 arg5 harg5 arg6 harg6 arg7 harg7 hc0 hc1 x0 x1 x2 x3 = k0_pay2 x0 x1 x0 x2 x3 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x4096) hz]
  simp only [View.readAt_eq_ld, harg2.read_unread, harg3.read_unread, harg4.read_unread, harg5.read_unread, harg6.read_unread, harg7.read_unread,
    View.ld_unit_zero (S := S256x4096) hz, View.ld_unit_zero (S := S384x4096) hz, View.ld_unit_zero (S := S4096x384) hz,
    View.readCov_unit_zero (S := S256x4096) _ hz]

/-- The middle case: the scratch, holding `acc`, ends at the accumulating store's payload over `acc`. -/
theorem scratch_B (c : Dev nD) (i : grid0.Coords) (arg2 : Memref sig .tc .vmem S256x4096 .bf16) (harg2 : arg2.IsWhole) (arg3 : Memref sig .tc .vmem S384x4096 .bf16) (harg3 : arg3.IsWhole) (arg4 : Memref sig .tc .vmem S384x4096 .bf16) (harg4 : arg4.IsWhole) (arg5 : Memref sig .tc .vmem S4096x384 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : ¬cond0_1 i)
    (x0 : Vec F S256x4096 .bf16) (x1 : Vec F S384x4096 .bf16) (x2 : Vec F S384x4096 .bf16) (x3 : Vec F S4096x384 .bf16) (acc : Vec F S256x4096 .f32) :
    sout0_B_0 c i arg2 harg2 arg3 harg3 arg4 harg4 arg5 harg5 arg6 harg6 arg7 harg7 hc0 hc1 x0 x1 x2 x3 acc = k0_pay2 x0 x1 x0 x2 x3 acc := by
  unfold sout0_B_0
  rw [View.read_writes_eq_canon _ _ _ (scover0_B_0 c i arg2 harg2 arg3 harg3 arg4 harg4 arg5 harg5 arg6 harg6 arg7 harg7 hc0 hc1 x0 x1 x2 x3 acc)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S256x4096) hz, View.ld_unit_zero (S := S384x4096) hz, View.ld_unit_zero (S := S4096x384) hz]

/-- The last case, the scratch: as in the middle case. -/
theorem scratch_C (c : Dev nD) (i : grid0.Coords) (arg2 : Memref sig .tc .vmem S256x4096 .bf16) (harg2 : arg2.IsWhole) (arg3 : Memref sig .tc .vmem S384x4096 .bf16) (harg3 : arg3.IsWhole) (arg4 : Memref sig .tc .vmem S384x4096 .bf16) (harg4 : arg4.IsWhole) (arg5 : Memref sig .tc .vmem S4096x384 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i)
    (x0 : Vec F S256x4096 .bf16) (x1 : Vec F S384x4096 .bf16) (x2 : Vec F S384x4096 .bf16) (x3 : Vec F S4096x384 .bf16) (acc : Vec F S256x4096 .f32) :
    sout0_C_0 c i arg2 harg2 arg3 harg3 arg4 harg4 arg5 harg5 arg6 harg6 arg7 harg7 hc0 hc1 x0 x1 x2 x3 acc = k0_pay2 x0 x1 x0 x2 x3 acc := by
  unfold sout0_C_0
  rw [View.read_writes_eq_canon _ _ _ (scover0_C_0 c i arg2 harg2 arg3 harg3 arg4 harg4 arg5 harg5 arg6 harg6 arg7 harg7 hc0 hc1 x0 x1 x2 x3 acc)]
  unfold kernelRun0_C
  dsimp only
  sl_unfold_words
  rw [View.canon_unit_zero hz]
  simp only [View.readAt_eq_ld, harg2.read_unread, harg3.read_unread, harg4.read_unread, harg5.read_unread, harg6.read_unread, harg7.read_unread,
    View.ld_unit_zero (S := S256x4096) hz, View.ld_unit_zero (S := S384x4096) hz, View.ld_unit_zero (S := S4096x384) hz,
    View.readCov_unit_zero (S := S256x4096) _ hz]

/-- The last case, the output block: the scratch's final contents, copied. -/
theorem output_C (c : Dev nD) (i : grid0.Coords) (arg2 : Memref sig .tc .vmem S256x4096 .bf16) (harg2 : arg2.IsWhole) (arg3 : Memref sig .tc .vmem S384x4096 .bf16) (harg3 : arg3.IsWhole) (arg4 : Memref sig .tc .vmem S384x4096 .bf16) (harg4 : arg4.IsWhole) (arg5 : Memref sig .tc .vmem S4096x384 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i)
    (x0 : Vec F S256x4096 .bf16) (x1 : Vec F S384x4096 .bf16) (x2 : Vec F S384x4096 .bf16) (x3 : Vec F S4096x384 .bf16) (acc : Vec F S256x4096 .f32) :
    out0_C_4 c i arg2 harg2 arg3 harg3 arg4 harg4 arg5 harg5 arg6 harg6 arg7 harg7 hc0 hc1 x0 x1 x2 x3 acc = k0_pay2 x0 x1 x0 x2 x3 acc := by
  unfold out0_C_4
  rw [View.read_writes_eq_canon _ _ _ (cover0_C_4 c i arg2 harg2 arg3 harg3 arg4 harg4 arg5 harg5 arg6 harg6 arg7 harg7 hc0 hc1 x0 x1 x2 x3 acc)]
  unfold kernelRun0_C
  dsimp only
  sl_unfold_words
  rw [View.canon_unit_zero hz]
  simp only [View.readAt_eq_ld, harg2.read_unread, harg3.read_unread, harg4.read_unread, harg5.read_unread, harg6.read_unread, harg7.read_unread,
    View.ld_unit_zero (S := S256x4096) hz, View.ld_unit_zero (S := S384x4096) hz, View.ld_unit_zero (S := S4096x384) hz,
    View.readCov_unit_zero (S := S256x4096) _ hz]

end Cert.KernelIdeal.Cases
-- ==== Proof.Blocks.lean ====
/-
  The four input blocks of a tile, as parts of the argument arrays.

  Grid point `t` (row-major over 32 × 32) works on token block `t / 32` and hidden block `t % 32`: its windows fetch
  rows `256·(t/32) …` of the tokens, rows `384·(t%32) …` of the gate and of the up weights, and columns
  `384·(t%32) …` of the down weights. The arrays the windows read are the arguments converted to a narrower float
  format before the call, which at the ideal values changes nothing. So every entry of a block is the entry of the
  corresponding argument at the tile's row or column offset.
-/
import proofs.«137303_j20383914787225_1_alg».proof.Proof.Spec
import proofs.«137303_j20383914787225_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.StableHlo

/-- The windows' block indices at every grid point, decided once over the grid. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = 0 ∧ win0_3.index t (1 : Fin 2) = t.val % 32
    ∧ win0_4.index t (0 : Fin 2) = t.val / 32 ∧ win0_4.index t (1 : Fin 2) = 0 :=
  (by decide +kernel : ∀ t : Fin grid0.N, _)

section AnyValues

variable {F : FTy → Type} [FloatOps F]
variable (m : (ℓ : Loc nD τ sig) → Buf (Elt F) ℓ)

/-- The blocks at point `t`, at their literal types. -/
abbrev xblk (c : Dev nD) (t : Fin cfg0.N) : Vec F S256x4096 .bf16 := iblk m c 0 t
abbrev gblk (c : Dev nD) (t : Fin cfg0.N) : Vec F S384x4096 .bf16 := iblk m c 1 t
abbrev ublk (c : Dev nD) (t : Fin cfg0.N) : Vec F S384x4096 .bf16 := iblk m c 2 t
abbrev dblk (c : Dev nD) (t : Fin cfg0.N) : Vec F S4096x384 .bf16 := iblk m c 3 t

/-- The arrays the windows read: each argument converted before the call. -/
theorem V_tokens (c : Dev nD) : (V m c main_v0 : S8192x4096.Idx → Elt F .bf16)
    = truncf .bf16 (m ((c : Thread nD τ).loc main_arg0)) bitsLt_bf16_f32 := by
  dsimp only [Gen.V, Gen.hostOps0]; after_results
theorem V_gate (c : Dev nD) : (V m c main_v1 : S12288x4096.Idx → Elt F .bf16)
    = truncf .bf16 (m ((c : Thread nD τ).loc main_arg1)) bitsLt_bf16_f32 := by
  dsimp only [Gen.V, Gen.hostOps0]; after_results
theorem V_up (c : Dev nD) : (V m c main_v2 : S12288x4096.Idx → Elt F .bf16)
    = truncf .bf16 (m ((c : Thread nD τ).loc main_arg2)) bitsLt_bf16_f32 := by
  dsimp only [Gen.V, Gen.hostOps0]; after_results
theorem V_down (c : Dev nD) : (V m c main_v3 : S4096x12288.Idx → Elt F .bf16)
    = truncf .bf16 (m ((c : Thread nD τ).loc main_arg3)) bitsLt_bf16_f32 := by
  dsimp only [Gen.V, Gen.hostOps0]; after_results

/-- Row `r` of the token block is row `256·(t/32) + r` of the array. -/
theorem xblk_apply (c : Dev nD) (t : Fin cfg0.N) (r : Fin 256) (k : Fin 4096) :
    xblk m c t (ix2 r k) = V m c main_v0 (ix2 (SwiGLU.rowIx (t.val / 32) r) k) := by
  obtain ⟨e0, e1, -⟩ := idx_facts t
  have hN : t.val < 1024 := lt_of_lt_of_eq t.isLt (show cfg0.N = 1024 from N_0)
  show V m c main_v0 (((cfg0.win 0).blk t).view.emb (ix2 r k)) = _
  refine congrArg _ (funext fun a => Fin.ext ?_)
  match a with
  | ⟨0, _⟩ => show win0_0.index t (0 : Fin 2) * 256 + 1 * r.val = 256 * (t.val / 32 % 32) + r.val; omega
  | ⟨1, _⟩ => show win0_0.index t (1 : Fin 2) * 4096 + 1 * k.val = k.val; omega

/-- Row `j` of the gate block is row `384·(t%32) + j` of the array. -/
theorem gblk_apply (c : Dev nD) (t : Fin cfg0.N) (j : Fin 384) (k : Fin 4096) :
    gblk m c t (ix2 j k) = V m c main_v1 (ix2 (SwiGLU.colIx t.val j) k) := by
  obtain ⟨-, -, e0, e1, -⟩ := idx_facts t
  show V m c main_v1 (((cfg0.win 1).blk t).view.emb (ix2 j k)) = _
  refine congrArg _ (funext fun a => Fin.ext ?_)
  match a with
  | ⟨0, _⟩ => show win0_1.index t (0 : Fin 2) * 384 + 1 * j.val = 384 * (t.val % 32) + j.val; omega
  | ⟨1, _⟩ => show win0_1.index t (1 : Fin 2) * 4096 + 1 * k.val = k.val; omega

/-- Row `j` of the up block likewise. -/
theorem ublk_apply (c : Dev nD) (t : Fin cfg0.N) (j : Fin 384) (k : Fin 4096) :
    ublk m c t (ix2 j k) = V m c main_v2 (ix2 (SwiGLU.colIx t.val j) k) := by
  obtain ⟨-, -, -, -, e0, e1, -⟩ := idx_facts t
  show V m c main_v2 (((cfg0.win 2).blk t).view.emb (ix2 j k)) = _
  refine congrArg _ (funext fun a => Fin.ext ?_)
  match a with
  | ⟨0, _⟩ => show win0_2.index t (0 : Fin 2) * 384 + 1 * j.val = 384 * (t.val % 32) + j.val; omega
  | ⟨1, _⟩ => show win0_2.index t (1 : Fin 2) * 4096 + 1 * k.val = k.val; omega

/-- Column `j` of the down block is column `384·(t%32) + j` of the array. -/
theorem dblk_apply (c : Dev nD) (t : Fin cfg0.N) (h : Fin 4096) (j : Fin 384) :
    dblk m c t (ix2 h j) = V m c main_v3 (ix2 h (SwiGLU.colIx t.val j)) := by
  obtain ⟨-, -, -, -, -, -, e0, e1, -⟩ := idx_facts t
  show V m c main_v3 (((cfg0.win 3).blk t).view.emb (ix2 h j)) = _
  refine congrArg _ (funext fun a => Fin.ext ?_)
  match a with
  | ⟨0, _⟩ => show win0_3.index t (0 : Fin 2) * 4096 + 1 * h.val = h.val; omega
  | ⟨1, _⟩ => show win0_3.index t (1 : Fin 2) * 384 + 1 * j.val = 384 * (t.val % 32) + j.val; omega

end AnyValues

/-! ## At the ideal values: the tile's contribution is the specification's term -/

variable (m : (ℓ : Loc nD τ sig) → Buf (Elt Ideal) ℓ)

/-- The four arguments as the specification's arrays. -/
abbrev tokens (c : Dev nD) : SwiGLU.TokArr := m ((c : Thread nD τ).loc main_arg0)
abbrev gateW (c : Dev nD) : SwiGLU.UpArr := m ((c : Thread nD τ).loc main_arg1)
abbrev upW (c : Dev nD) : SwiGLU.UpArr := m ((c : Thread nD τ).loc main_arg2)
abbrev downW (c : Dev nD) : SwiGLU.DownArr := m ((c : Thread nD τ).loc main_arg3)

/-- The tile at point `t` contributes the specification's term number `t`. -/
theorem tile_eq (c : Dev nD) (t : Fin cfg0.N) (r : Fin 256) (h : Fin 4096) :
    SwiGLU.tileAt (xblk m c t) (gblk m c t) (ublk m c t) (dblk m c t) r h
      = SwiGLU.blockTerm (tokens m c) (gateW m c) (upW m c) (downW m c) t.val r h :=
  SwiGLU.tileAt_eq_blockTerm (tokens m c) (gateW m c) (upW m c) (downW m c) t.val
    (xblk m c t) (gblk m c t) (ublk m c t) (dblk m c t)
    (fun r k => (xblk_apply m c t r k).trans (by rw [V_tokens]; rfl))
    (fun j k => (gblk_apply m c t j k).trans (by rw [V_gate]; rfl))
    (fun j k => (ublk_apply m c t j k).trans (by rw [V_up]; rfl))
    (fun h j => (dblk_apply m c t h j).trans (by rw [V_down]; rfl)) r h

end Cert.KernelIdeal.Blocks
-- ==== Proof.Whole.lean ====
/-
  The result array of the tiled program is `out` of its arguments.

  Along a token block's 32 grid points the scratch block starts from zero and gains one tile's contribution per point;
  after the last of them it is copied to the output block, which is then written to rows `256·q …` of the result.
  So entry (r, o) of that block is `0 + Σ_{s<32} (contribution of tile 32·q + s)`, which the specification's law
  identifies with entry (256·q + r, o) of `out`. The 32 written blocks are the 32 row bands of the result: every
  entry is written, once, by the last point of its band.
-/
import proofs.«137303_j20383914787225_1_alg».proof.Proof.Spec
import proofs.«137303_j20383914787225_1_alg».proof.Proof.Payload
import proofs.«137303_j20383914787225_1_alg».proof.Proof.Cases
import proofs.«137303_j20383914787225_1_alg».proof.Proof.Blocks
import proofs.«137303_j20383914787225_1_alg».proof.Proof.Gen.KernelIdeal.Value
import Idealize.ShloMosaic.Lib.Pipeline.Value
import Idealize.ShloMosaic.Lib.ValueIdx

noncomputable section

namespace Cert.KernelIdeal.Whole

open Cert.KernelIdeal Cert.KernelIdeal.Gen Cert.KernelIdeal.Value Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Tile number `n`'s contribution at an entry of its token block. -/
abbrev term (c : Dev nD) (n : ℕ) (y : S256x4096.Idx) : EReal :=
  SwiGLU.blockTerm (tokens m c) (gateW m c) (upW m c) (downW m c) n ⟨(y 0).val, (y 0).isLt⟩ ⟨(y 1).val, (y 1).isLt⟩

/-! ## One point's effect on the scratch -/

/-- At the first point of a token block the scratch ends at zero plus that tile's contribution, whatever it held. -/
theorem scratch_reset (c : Dev nD) (n : ℕ) (hb : n < cfg0.N) (h0 : n % 32 = 0) (acc : Vec Ideal S256x4096 .f32)
    (y : S256x4096.Idx) : scAt0_0 m c n hb acc y = 0 + term m c n y := by
  obtain ⟨r, o, rfl⟩ : ∃ (r : Fin 256) (o : Fin 4096), y = ix2 r o := ⟨y 0, y 1, eq_ix2 y⟩
  have h1 : ¬n % 32 = 31 := by omega
  unfold scAt0_0
  rw [dif_pos h0, dif_neg h1]
  refine (congrFun (Cases.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun hh => h1 ((hcond0_1 (⟨n, hb⟩ : Fin cfg0.N)).mp hh)) (xblk m c (⟨n, hb⟩ : Fin cfg0.N)) (gblk m c (⟨n, hb⟩ : Fin cfg0.N)) (ublk m c (⟨n, hb⟩ : Fin cfg0.N)) (dblk m c (⟨n, hb⟩ : Fin cfg0.N))) (ix2 r o)).trans ?_
  refine (Tile.acc_apply (xblk m c (⟨n, hb⟩ : Fin cfg0.N)) (gblk m c (⟨n, hb⟩ : Fin cfg0.N)) (ublk m c (⟨n, hb⟩ : Fin cfg0.N)) (dblk m c (⟨n, hb⟩ : Fin cfg0.N)) (k0_pay1 (F := Ideal)) r o).trans ?_
  exact congrArg₂ (· + ·) (Tile.zero_apply _) (tile_eq m c (⟨n, hb⟩ : Fin cfg0.N) r o)

/-- At every other point it gains that tile's contribution. -/
theorem scratch_step (c : Dev nD) (n : ℕ) (hb : n < cfg0.N) (h0 : ¬n % 32 = 0) (acc : Vec Ideal S256x4096 .f32)
    (y : S256x4096.Idx) : scAt0_0 m c n hb acc y = acc y + term m c n y := by
  obtain ⟨r, o, rfl⟩ : ∃ (r : Fin 256) (o : Fin 4096), y = ix2 r o := ⟨y 0, y 1, eq_ix2 y⟩
  unfold scAt0_0
  by_cases h1 : n % 32 = 31
  · rw [dif_neg h0, dif_pos h1]
    refine (congrFun (Cases.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun hh => h0 ((hcond0_0 (⟨n, hb⟩ : Fin cfg0.N)).mp hh)) ((hcond0_1 (⟨n, hb⟩ : Fin cfg0.N)).mpr h1) (xblk m c (⟨n, hb⟩ : Fin cfg0.N)) (gblk m c (⟨n, hb⟩ : Fin cfg0.N)) (ublk m c (⟨n, hb⟩ : Fin cfg0.N)) (dblk m c (⟨n, hb⟩ : Fin cfg0.N)) acc) (ix2 r o)).trans ?_
    refine (Tile.acc_apply (xblk m c (⟨n, hb⟩ : Fin cfg0.N)) (gblk m c (⟨n, hb⟩ : Fin cfg0.N)) (ublk m c (⟨n, hb⟩ : Fin cfg0.N)) (dblk m c (⟨n, hb⟩ : Fin cfg0.N)) acc r o).trans ?_
    exact congrArg (acc (ix2 r o) + ·) (tile_eq m c (⟨n, hb⟩ : Fin cfg0.N) r o)
  · rw [dif_neg h0, dif_neg h1]
    refine (congrFun (Cases.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun hh => h0 ((hcond0_0 (⟨n, hb⟩ : Fin cfg0.N)).mp hh)) (fun hh => h1 ((hcond0_1 (⟨n, hb⟩ : Fin cfg0.N)).mp hh)) (xblk m c (⟨n, hb⟩ : Fin cfg0.N)) (gblk m c (⟨n, hb⟩ : Fin cfg0.N)) (ublk m c (⟨n, hb⟩ : Fin cfg0.N)) (dblk m c (⟨n, hb⟩ : Fin cfg0.N)) acc) (ix2 r o)).trans ?_
    refine (Tile.acc_apply (xblk m c (⟨n, hb⟩ : Fin cfg0.N)) (gblk m c (⟨n, hb⟩ : Fin cfg0.N)) (ublk m c (⟨n, hb⟩ : Fin cfg0.N)) (dblk m c (⟨n, hb⟩ : Fin cfg0.N)) acc r o).trans ?_
    exact congrArg (acc (ix2 r o) + ·) (tile_eq m c (⟨n, hb⟩ : Fin cfg0.N) r o)

/-! ## The scratch after any point: zero plus the contributions so far in its token block -/

theorem scratch_after (c : Dev nD) (t : Fin cfg0.N) (y : S256x4096.Idx) :
    (outsAt0 m c t.val t.isLt).2 y = 0 + ∑ s ∈ Finset.range (t.val % 32 + 1), term m c (32 * (t.val / 32) + s) y := by
  refine (congrFun (soutsAt0_0_eq m c t) y).trans ?_
  exact Pipeline.accAt_add_apply (ι := S256x4096.Idx) (β := EReal)
    (fun n h => scAt0_0 m c n h (VS0_0.read (Elt Ideal) VS0_0.junk)) (scAt0_0 m c) (fun _ => 0) (term m c)
    (32 * (t.val / 32)) 31
    (fun hb y => scratch_reset m c _ hb (Nat.mul_mod_right 32 _) _ y)
    (fun n hb acc y hlt hle => scratch_step m c n hb (by omega) acc y)
    (t.val % 32) (by omega) _ y

/-! ## The last point of a token block -/

/-- There the output block is the scratch. -/
theorem output_eq_scratch (c : Dev nD) (t : Fin cfg0.N) (h0 : ¬t.val % 32 = 0) (h1 : t.val % 32 = 31) :
    (outsAt0 m c t.val t.isLt).1 = (outsAt0 m c t.val t.isLt).2 := by
  rw [outsAt0_C m c t h0 h1]
  dsimp only
  exact (Cases.output_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2).trans
    (Cases.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2).symm

/-- Entry (r, o) of the output block at point `t` is entry (256·(t/32) + r, o) of the result. -/
theorem emb_out (t : Fin cfg0.N) (r : Fin 256) (o : Fin 4096) :
    ((cfg0.win 4).blk t).view.emb (ix2 r o) = ix2 (SwiGLU.rowIx (t.val / 32) r) o := by
  obtain ⟨-, -, -, -, -, -, -, -, e0, e1⟩ := idx_facts t
  have hN : t.val < 1024 := lt_of_lt_of_eq t.isLt (show cfg0.N = 1024 from N_0)
  funext a
  apply Fin.ext
  match a with
  | ⟨0, _⟩ => show win0_4.index t (0 : Fin 2) * 256 + 1 * r.val = 256 * (t.val / 32 % 32) + r.val; omega
  | ⟨1, _⟩ => show win0_4.index t (1 : Fin 2) * 4096 + 1 * o.val = o.val; omega

/-- What a writing point writes is its block of `out`. -/
theorem flushed_eq (c : Dev nD) (t : Fin cfg0.N) (hf : (cfg0.win 4).flush t = true) :
    (dats m 0 c).flushed 4 t = ((cfg0.win 4).blk t).view.read (Elt Ideal) (SwiGLU.out (tokens m c) (gateW m c) (upW m c) (downW m c)) := by
  have h1 : t.val % 32 = 31 := (flush0_4 t).mp hf
  have h0 : ¬t.val % 32 = 0 := by omega
  rw [flushed4, output_eq_scratch m c t h0 h1]
  funext y
  obtain ⟨r, o, rfl⟩ : ∃ (r : Fin 256) (o : Fin 4096), y = ix2 r o := ⟨y 0, y 1, eq_ix2 y⟩
  show (outsAt0 m c t.val t.isLt).2 (ix2 r o) = SwiGLU.out (tokens m c) (gateW m c) (upW m c) (downW m c) (((cfg0.win 4).blk t).view.emb (ix2 r o))
  rw [emb_out, SwiGLU.out_ix2]
  refine (scratch_after m c t (ix2 r o)).trans ?_
  rw [h1, zero_add]
  exact (SwiGLU.outAt_eq_sum_blocks (tokens m c) (gateW m c) (upW m c) (downW m c) (t.val / 32) r o).symm

/-! ## Every entry of the result is written -/

theorem mem_blk (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v4).slice (win0_4.rect t)).set ↔ _
  rw [View.set_slice_whole, Rect.mem_set_unit]
  exact Iff.rfl

/-- Row `i₀` lies in band `i₀ / 256`, whose last point writes it. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 1024 := N_0
  obtain ⟨t, ht⟩ : ∃ t : Fin cfg0.N, t.val = 32 * ((i 0).val / 256) + 31 := ⟨⟨32 * ((i 0).val / 256) + 31, by rw [hN]; omega⟩, rfl⟩
  obtain ⟨-, -, -, -, -, -, -, -, e0, e1⟩ := idx_facts t
  refine ⟨t, (flush0_4 t).mpr (by rw [ht]; omega), ?_⟩
  rw [mem_blk]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 4096 ≤ (i 1).val ∧ (i 1).val < win0_4.index t (1 : Fin 2) * 4096 + 4096; rw [e1]; omega

/-- So the result array ends at `out` of the arguments. -/
theorem final (c : Dev nD) : (dats m 0 c).arrAt 4 cfg0.N = SwiGLU.out (tokens m c) (gateW m c) (upW m c) (downW m c) :=
  (dats m 0 c).arrAt_eq_of_cover 4 (SwiGLU.out (tokens m c) (gateW m c) (upW m c) (downW m c)) (flushed_eq m c) cover

/-- The run: the result at `out` of the arguments, the arguments unchanged. -/
theorem run : θ_run defs (onTc (τ := τ) (main (F := Ideal))) ⟨m, fun _ => 0, ρ⟩ fun r => ∀ c : Dev nD,
      r.2.mem ((c : Thread nD τ).loc main_v4) = SwiGLU.out (tokens m c) (gateW m c) (upW m c) (downW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole
-- ==== Proof.RefValue.lean ====
/-
  The reference computes `out`.

  Its program is three contractions and a pointwise gate: the gate and up projections (each token row against each
  weight row along the model width), `g · (1 / (1 + e^(-g)))` times the up projection, and the down projection along
  all 12288 hidden units. Read one operation at a time at an index, each contraction is the plain sum over its
  contracted coordinate, the literal `1.0` is the number 1, and `1 / (1 + e^(-g))` is the sigmoid as the ideal values
  define it; so entry (t, h) of the result is `Σ_i hidden t i · down[h,i]`, the specification's `out`.
-/
import proofs.«137303_j20383914787225_1_alg».proof.Proof.Spec
import proofs.«137303_j20383914787225_1_alg».proof.Proof.Gen.ReferenceIdeal.Read

noncomputable section

namespace Cert.ReferenceIdeal.Whole

open Cert.ReferenceIdeal Cert.ReferenceIdeal.Gen Cert.ReferenceIdeal.Read Idealize.ShloMosaic Idealize.ShloMosaic.ValueIdx

/-- The word `0x3F800000` is the number one. -/
theorem one_f32 : Ideal.ofBits .f32 0x3F800000#32 = 1 := IdealRules.sign_bit.ideal_onePat .f32

/-- Where the projections read their operands: token `t`'s row and hidden unit `i`'s row, at column `k`. -/
theorem lidx_v0 (t : Fin 8192) (i : Fin 12288) (k : Fin 4096) : lidx_main_v0 (ix2 t i) k = ix2 t k :=
  funext fun a => by match a with | ⟨0, _⟩ => rfl | ⟨1, _⟩ => rfl
theorem ridx_v0 (t : Fin 8192) (i : Fin 12288) (k : Fin 4096) : ridx_main_v0 (ix2 t i) k = ix2 i k :=
  funext fun a => by match a with | ⟨0, _⟩ => rfl | ⟨1, _⟩ => rfl
theorem lidx_v1 (t : Fin 8192) (i : Fin 12288) (k : Fin 4096) : lidx_main_v1 (ix2 t i) k = ix2 t k :=
  funext fun a => by match a with | ⟨0, _⟩ => rfl | ⟨1, _⟩ => rfl
theorem ridx_v1 (t : Fin 8192) (i : Fin 12288) (k : Fin 4096) : ridx_main_v1 (ix2 t i) k = ix2 i k :=
  funext fun a => by match a with | ⟨0, _⟩ => rfl | ⟨1, _⟩ => rfl
/-- Where the down projection reads: the hidden row of token `t` and the down weights' row `h`, at hidden unit `i`. -/
theorem lidx_v4 (t : Fin 8192) (h : Fin 4096) (i : Fin 12288) : lidx_main_v4 (ix2 t h) i = ix2 t i :=
  funext fun a => by match a with | ⟨0, _⟩ => rfl | ⟨1, _⟩ => rfl
theorem ridx_v4 (t : Fin 8192) (h : Fin 4096) (i : Fin 12288) : ridx_main_v4 (ix2 t h) i = ix2 h i :=
  funext fun a => by match a with | ⟨0, _⟩ => rfl | ⟨1, _⟩ => rfl

variable (x : SwiGLU.TokArr) (gw uw : SwiGLU.UpArr) (dw : SwiGLU.DownArr)

/-- The gate projection. -/
theorem gate_apply (t : Fin 8192) (i : Fin 12288) : val_main_v0 (F := Ideal) x gw (ix2 t i) = SwiGLU.proj x gw t i := by
  rw [val_main_v0_apply]
  unfold SwiGLU.proj
  refine Finset.sum_congr rfl fun k _ => ?_
  rw [lidx_v0, ridx_v0]

/-- The up projection. -/
theorem up_apply (t : Fin 8192) (i : Fin 12288) : val_main_v1 (F := Ideal) x uw (ix2 t i) = SwiGLU.proj x uw t i := by
  rw [val_main_v1_apply]
  unfold SwiGLU.proj
  refine Finset.sum_congr rfl fun k _ => ?_
  rw [lidx_v1, ridx_v1]

/-- The gated hidden activation. -/
theorem hidden_apply (t : Fin 8192) (i : Fin 12288) :
    val_main_v3 (F := Ideal) x gw uw (ix2 t i) = SwiGLU.hidden x gw uw t i := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, up_apply, gate_apply]
  unfold SwiGLU.hidden
  show SwiGLU.proj x gw t i * Ideal.div (Ideal.ofBits .f32 0x3F800000#32) (Ideal.ofBits .f32 0x3F800000#32 + Ideal.exp (-(SwiGLU.proj x gw t i))) * SwiGLU.proj x uw t i = _
  rw [one_f32]
  rfl

/-- The reference's result is `out` of its arguments. -/
theorem result_eq : val_main_v4 (F := Ideal) x gw uw dw = SwiGLU.out x gw uw dw := by
  funext p
  obtain ⟨t, h, rfl⟩ : ∃ (t : Fin 8192) (h : Fin 4096), p = ix2 t h := ⟨p 0, p 1, eq_ix2 p⟩
  rw [val_main_v4_apply, SwiGLU.out_ix2]
  unfold SwiGLU.outAt
  refine Finset.sum_congr rfl fun i _ => ?_
  rw [lidx_v4, ridx_v4, hidden_apply]

end Cert.ReferenceIdeal.Whole
-- ==== Proof.lean ====
/-
  The certificate of the gated feed-forward kernel against its reference.

  Both idealized programs end with their result array at ONE function of the four arguments, the specification's
  `out`: `out[t,h] = Σ_i (g·σ(g)·u)[t,i] · down[h,i]`, with `g`, `u` the gate and up projections of token `t` and `σ` the
  sigmoid. The reference computes it in one piece (three whole contractions). The kernel computes it tile by tile:
  32 × 32 tiles of 256 tokens by 384 hidden units, each token block's 32 partial down projections accumulated from
  zero in a scratch block and written out after the last. The two agree on the extended reals because a sum over
  12288 = 32 · 384 hidden units is the sum of its 32 consecutive block sums, which needs only commutativity and
  associativity of addition; the narrowing of the operands' float format before the kernel is the identity at the ideal
  values, and the kernel's sigmoid operation is by definition the reference's `1 / (1 + e^(-g))`. Finiteness of the
  inputs is not used.

  The three programs run without fault and leave their arguments unchanged: the two kernels by their generated frame
  certificates, the reference by its generated run. The idealization rewrote no operation of the kernel.
-/
import proofs.«137303_j20383914787225_1_alg».proof.Defs
import proofs.«137303_j20383914787225_1_alg».proof.Proof.Gen.Kernel
import proofs.«137303_j20383914787225_1_alg».proof.Proof.Gen.Kernel.Skeleton
import proofs.«137303_j20383914787225_1_alg».proof.Proof.Gen.Kernel.Launch
import proofs.«137303_j20383914787225_1_alg».proof.Proof.Gen.Kernel.Points
import proofs.«137303_j20383914787225_1_alg».proof.Proof.Gen.Kernel.Frame
import proofs.«137303_j20383914787225_1_alg».proof.Proof.Gen.KernelIdeal
import proofs.«137303_j20383914787225_1_alg».proof.Proof.Gen.KernelIdeal.Skeleton
import proofs.«137303_j20383914787225_1_alg».proof.Proof.Gen.KernelIdeal.Launch
import proofs.«137303_j20383914787225_1_alg».proof.Proof.Gen.KernelIdeal.Points
import proofs.«137303_j20383914787225_1_alg».proof.Proof.Gen.KernelIdeal.Frame
import proofs.«137303_j20383914787225_1_alg».proof.Proof.Gen.ReferenceIdeal
import proofs.«137303_j20383914787225_1_alg».proof.Proof.Gen.Pre_finite_inputs
import proofs.«137303_j20383914787225_1_alg».proof.Proof.Gen.KernelIdeal.Value
import proofs.«137303_j20383914787225_1_alg».proof.Proof.Gen.ReferenceIdeal.Run
import proofs.«137303_j20383914787225_1_alg».proof.Proof.Gen.ReferenceIdeal.Read
import proofs.«137303_j20383914787225_1_alg».proof.Proof.Whole
import proofs.«137303_j20383914787225_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments, the kernel's result array and the reference's both end at
    `out` of those arguments. -/
theorem algebraic : Cert.algebraic_KernelIdeal_ReferenceIdeal := by
  intro m ρ m' ρ' _ hagree
  refine ⟨fun c => SwiGLU.out (Cert.KernelIdeal.Blocks.tokens m c) (Cert.KernelIdeal.Blocks.gateW m c)
    (Cert.KernelIdeal.Blocks.upW m c) (Cert.KernelIdeal.Blocks.downW m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Whole.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
